-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S512x256 : Shape := ⟨2, ![512, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S10000x256 .f32) (main_arg1 : FVec F S10000x10000 .f32) (main_arg2 : FVec F S512x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S512x256 : Shape := ⟨2, ![512, 256]⟩
abbrev S400x10000 : Shape := ⟨2, ![400, 10000]⟩
abbrev S400x256 : Shape := ⟨2, ![400, 256]⟩
abbrev S256x256 : Shape := ⟨2, ![256, 256]⟩

abbrev nBuf : Space → Nat
  | .hbm => 4
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S512x256, .f32⟩
  | .hbm, ⟨3, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S512x256, .f32⟩
  | .local _ .vmem, ⟨4, _⟩ => ⟨S400x256, .f32⟩
  | .local _ .vmem, ⟨5, _⟩ => ⟨S400x256, .f32⟩
  | .local _ .vmem, ⟨6, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v4 : BitVec 32 := Scalar.muli arg0 c400_i32
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x256_S256x256_256_0 : ∀ a, (![256, 0] : Fin 2 → Nat) a + S256x256.size a ≤ S512x256.size a
  h_S256x256 : 0 < S256x256.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S512x256_S256x256_0_0 : ∀ a, (![0, 0] : Fin 2 → Nat) a + S256x256.size a ≤ S512x256.size a
  h_S400x256 : 0 < S400x256.numel
  inb_S400x10000_S400x10000_0_0 : ∀ a, (![0, 0] : Fin 2 → Nat) a + S400x10000.size a ≤ S400x10000.size a
  h_S400x10000 : 0 < S400x10000.numel
  inb_S400x256_S400x256_0_0 : ∀ a, (![0, 0] : Fin 2 → Nat) a + S400x256.size a ≤ S400x256.size a
  dot_S10000x256_S256x256_S10000x256_1_0_0_1_n_n_wf : DotDims.WF S10000x256 S256x256 S10000x256 [1] [0] [0] [1] [] []
  dot_S400x256_S256x256_S400x256_1_0_0_1_n_n_wf : DotDims.WF S400x256 S256x256 S400x256 [1] [0] [0] [1] [] []
  dot_S400x10000_S10000x256_S400x256_1_0_0_1_n_n_wf : DotDims.WF S400x10000 S10000x256 S400x256 [1] [0] [0] [1] [] []
  hrank0 : 0 < grid0.rank
  k0_off1_inb : ∀ i : grid0.Coords, ∀ a, (k0_off1 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S512x256 : Shape := ⟨2, ![512, 256]⟩
abbrev S10000x512 : Shape := ⟨2, ![10000, 512]⟩

abbrev nBuf : Space → Nat
  | .hbm => 6
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S512x256, .f32⟩
  | .hbm, ⟨3, _⟩ => ⟨S10000x256, .f32⟩
  | .hbm, ⟨4, _⟩ => ⟨S10000x512, .f32⟩
  | .hbm, ⟨5, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  concatenates_S10000x256_S10000x256_S10000x512_d1 : Shape.Concatenates [S10000x256, S10000x256] S10000x512 1
  dot_S10000x10000_S10000x256_S10000x256_1_0_0_1_n_n_wf : DotDims.WF S10000x10000 S10000x256 S10000x256 [1] [0] [0] [1] [] []
  dot_S10000x512_S512x256_S10000x256_1_0_0_1_n_n_wf : DotDims.WF S10000x512 S512x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.LibRealContraction.lean ====
import proofs.«144038_g72069551227474_cont_9to1c4b_720_7_alg».proof.Proof.LibRealSums

/-! # Contracting a product of real matrices with a real vector, in either order

For real numbers, `(A · B) · w = A · (B · w)`: the sum over `k` of `(∑ n, a n * b n k) * w k` is the sum over `n` of
`a n * ∑ k, b n k * w k`. On the extended reals the law needs every entry to be a real number (a product does not
distribute over a sum once an infinity is among the terms); `IsReal` says so. -/

open scoped BigOperators

namespace Idealize.ShloMosaic.RealSums

/-- ASSOCIATIVITY OF A DOUBLE CONTRACTION over real entries: contracting `a` with `b` over `n` first and the result
    with `w` over `k`, or `b` with `w` over `k` first and `a` with the result over `n`, is the same number. -/
theorem sum_sum_mul_assoc {ι κ : Type*} [Fintype ι] [Fintype κ] (a : ι → EReal) (b : ι → κ → EReal) (w : κ → EReal)
    (ha : ∀ n, IsReal (a n)) (hb : ∀ n k, IsReal (b n k)) (hw : ∀ k, IsReal (w k)) :
    ∑ k, (∑ n, a n * b n k) * w k = ∑ n, a n * ∑ k, b n k * w k := by
  choose a' ha' using ha
  choose b' hb' using hb
  choose w' hw' using hw
  simp only [ha', hb', hw', ← EReal.coe_mul, ← coe_sum]
  rw [EReal.coe_eq_coe_iff]
  simp only [Finset.sum_mul, Finset.mul_sum]
  rw [Finset.sum_comm]
  refine Finset.sum_congr rfl fun n _ => Finset.sum_congr rfl fun k _ => ?_
  ring

end Idealize.ShloMosaic.RealSums
-- ==== Proof.SageSpec.lean ====
import Idealize.ShloMosaic.PureOps.Ideal
import Idealize.ShloMosaic.Lib.ValueIdx
import proofs.«144038_g72069551227474_cont_9to1c4b_720_7_alg».proof.Proof.LibRealContraction

/-! # The GraphSAGE layer as one function of its three arrays, in two arrangements

With `x : [10000, 256]` the node features, `adj : [10000, 10000]` the dense adjacency and `w : [512, 256]` the weight,
whose rows `0 … 255` act on a node's own features and rows `256 … 511` on its neighbours' aggregate:

* `sage` projects first: `out[i, j] = ∑ k, x[i, k] · w[k, j] + ∑ n, adj[i, n] · (∑ k, x[n, k] · w[256 + k, j])`;
* `sageCat` aggregates first: `out[i, j] = ∑ k < 512, cat[i, k] · w[k, j]` with `cat[i, ·]` the row `x[i, ·]` followed
  by the aggregated row `∑ n, adj[i, n] · x[n, ·]`.

They are the same array when every entry of the three inputs is a real number: split the sum over the 512 rows of `w`
at 256, and in the second half move the weight through the double sum (associativity of a double contraction, which on
the extended reals needs real entries). -/

noncomputable section

open scoped BigOperators

namespace Cert.Sage

open Idealize.ShloMosaic Idealize.ShloMosaic.ValueIdx Idealize.ShloMosaic.RealSums

/-- The shapes: features (and result), adjacency, weight. -/
abbrev SX : Shape := ⟨2, ![10000, 256]⟩
abbrev SA : Shape := ⟨2, ![10000, 10000]⟩
abbrev SW : Shape := ⟨2, ![512, 256]⟩

/-- Row `k` of the weight's upper half (the self term) and of its lower half (the neighbour term). -/
abbrev selfRow (k : Fin 256) : Fin 512 := Fin.castAdd 256 k
abbrev nbrRow (k : Fin 256) : Fin 512 := Fin.natAdd 256 k

variable (x : SX.Idx → EReal) (adj : SA.Idx → EReal) (w : SW.Idx → EReal)

/-- The features projected by the weight's lower half: `y[n, j] = ∑ k, x[n, k] · w[256 + k, j]`. -/
def projAt (n : Fin 10000) (j : Fin 256) : EReal :=
  ∑ k : Fin 256, x (ix2 n k) * w (ix2 (nbrRow k) j)

/-- The layer at row `p`, column `j`, projecting before aggregating. -/
def sageAt (p : Fin 10000) (j : Fin 256) : EReal :=
  (∑ k : Fin 256, x (ix2 p k) * w (ix2 (selfRow k) j)) + ∑ n : Fin 10000, adj (ix2 p n) * projAt x w n j

/-- The neighbours' aggregate: `s[p, k] = ∑ n, adj[p, n] · x[n, k]`. -/
def aggrAt (p : Fin 10000) (k : Fin 256) : EReal :=
  ∑ n : Fin 10000, adj (ix2 p n) * x (ix2 n k)

/-- Row `p` of the concatenation `[x | aggr]` at column `k < 512`. -/
def catRow (p : Fin 10000) (k : Fin 512) : EReal :=
  if h : k.val < 256 then x (ix2 p ⟨k.val, h⟩) else aggrAt x adj p ⟨k.val - 256, by omega⟩

/-- The layer at row `p`, column `j`, aggregating and concatenating before the one product with the whole weight. -/
def sageCatAt (p : Fin 10000) (j : Fin 256) : EReal :=
  ∑ k : Fin 512, catRow x adj p k * w (ix2 k j)

/-- The two arrangements as arrays. -/
def sage : SX.Idx → EReal := fun i => sageAt x adj w (i 0) (i 1)
def sageCat : SX.Idx → EReal := fun i => sageCatAt x adj w (i 0) (i 1)

theorem catRow_selfRow (p : Fin 10000) (k : Fin 256) : catRow x adj p (selfRow k) = x (ix2 p k) := by
  unfold catRow
  rw [dif_pos (show (selfRow k).val < 256 from k.isLt)]
  rfl

theorem catRow_nbrRow (p : Fin 10000) (k : Fin 256) : catRow x adj p (nbrRow k) = aggrAt x adj p k := by
  unfold catRow
  rw [dif_neg (show ¬(nbrRow k).val < 256 by simp [Fin.natAdd])]
  congr 1
  exact Fin.ext (by simp [Fin.natAdd])

/-- THE LAW, entry by entry: over real entries the two arrangements agree. -/
theorem sageCatAt_eq_sageAt (hx : ∀ i, IsReal (x i)) (ha : ∀ i, IsReal (adj i)) (hw : ∀ i, IsReal (w i))
    (p : Fin 10000) (j : Fin 256) : sageCatAt x adj w p j = sageAt x adj w p j := by
  unfold sageCatAt sageAt
  rw [show (∑ k : Fin 512, catRow x adj p k * w (ix2 k j))
      = ∑ k : Fin 256, catRow x adj p (selfRow k) * w (ix2 (selfRow k) j)
        + ∑ k : Fin 256, catRow x adj p (nbrRow k) * w (ix2 (nbrRow k) j) from
    Fin.sum_univ_add (a := 256) (b := 256) fun k => catRow x adj p k * w (ix2 k j)]
  simp only [catRow_selfRow, catRow_nbrRow]
  congr 1
  unfold aggrAt projAt
  exact sum_sum_mul_assoc (fun n => adj (ix2 p n)) (fun n k => x (ix2 n k)) (fun k => w (ix2 (nbrRow k) j))
    (fun n => ha _) (fun n k => hx _) (fun k => hw _)

/-- THE LAW: over real entries the two arrangements are one array. -/
theorem sageCat_eq_sage (hx : ∀ i, IsReal (x i)) (ha : ∀ i, IsReal (adj i)) (hw : ∀ i, IsReal (w i)) :
    sageCat x adj w = sage x adj w :=
  funext fun i => sageCatAt_eq_sageAt x adj w hx ha hw (i 0) (i 1)

end Cert.Sage

end
-- ==== Proof.SageMatmul.lean ====
import proofs.«144038_g72069551227474_cont_9to1c4b_720_7_alg».proof.Proof.Gen.KernelIdeal.Skeleton
import Idealize.ShloMosaic.PureOps.Ideal.Laws
import Idealize.ShloMosaic.Lib.ValueIdx
import Idealize.ShloMosaic.Lib.Pipeline.Value

/-! # The kernel body's two stored values, read at an index over the extended reals

A plain matrix product `[M, K] × [K, N]` into a zero accumulator is, entry by entry, the sum over the contracted
coordinate of the operands' products. The body stores two values: the projected features
`y[n, j] = ∑ k, x[n, k] · w₂[k, j]` (into the scratch, at the first grid point) and the band's result
`∑ k, xb[r, k] · w₁[k, j] + ∑ n, a[r, n] · y[n, j]` (into the output block, at every point). -/

noncomputable section

open scoped BigOperators

namespace Cert.Sage

open Idealize.ShloMosaic Idealize.ShloMosaic.ValueIdx

section Plain
variable (M K N : Nat)

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- A plain product into the zero accumulator, at row `p` and column `q`: the sum over the contracted coordinate. -/
theorem plain_matmul_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 M K N _ _
      | ⟨1, _⟩ => exact (plain_lhs_1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 M K N _ _).trans hk
      | ⟨1, _⟩ => exact plain_rhs_1 M K N _ _)
  rw [el, er]

end Plain

open Cert.KernelIdeal Cert.KernelIdeal.Gen

/-- The scratch's stored value: the features (`v14`) projected by the weight's lower half (`v13`). -/
theorem pay1_apply (v13 : Vec Ideal S256x256 .f32) (v14 : Vec Ideal S10000x256 .f32) (n : Fin 10000) (j : Fin 256) :
    k0_pay1 (F := Ideal) v13 v14 (ix2 n j) = ∑ k : Fin 256, v14 (ix2 n k) * v13 (ix2 k j) := by
  unfold k0_pay1
  simp only [shapeCast_self]
  exact plain_matmul_apply 10000 256 256 v14 v13 n j

/-- The output block's stored value: the band's own features (`v6`) by the weight's upper half (`v3`), plus the
    adjacency band (`v8`) by the projected features (`v9`). -/
theorem pay2_apply (v3 : Vec Ideal S256x256 .f32) (v6 : Vec Ideal S400x256 .f32) (v8 : Vec Ideal S400x10000 .f32)
    (v9 : Vec Ideal S10000x256 .f32) (r : Fin 400) (j : Fin 256) :
    k0_pay2 (F := Ideal) v3 v6 v8 v9 (ix2 r j)
      = (∑ k : Fin 256, v6 (ix2 r k) * v3 (ix2 k j)) + ∑ n : Fin 10000, v8 (ix2 r n) * v9 (ix2 n j) := by
  unfold k0_pay2
  rw [addf_apply]
  congr 1
  · exact plain_matmul_apply 400 256 256 v6 v3 r j
  · exact plain_matmul_apply 400 10000 256 v8 v9 r j

end Cert.Sage

end
-- ==== Proof.SageKernel.lean ====
import proofs.«144038_g72069551227474_cont_9to1c4b_720_7_alg».proof.Proof.Gen.KernelIdeal.Value
import proofs.«144038_g72069551227474_cont_9to1c4b_720_7_alg».proof.Proof.SageSpec
import proofs.«144038_g72069551227474_cont_9to1c4b_720_7_alg».proof.Proof.SageMatmul
import Idealize.ShloMosaic.Lib.Pipeline.Value
import Idealize.ShloMosaic.Lib.ValueIdx
import Idealize.ShloMosaic.Lib.Tactic

/-! # What the kernel leaves in its result array: the layer, projecting first

The grid has 25 points; point `t` owns the band of rows `400·t … 400·t + 399`. The features and the weight are staged
whole at every point, the adjacency one band at a time. At the first point the body writes the projected features
`y = x · w₂` (the weight's lower half) to a scratch it carries from point to point and never writes again; at every
point it writes the band `x[band] · w₁ + adj[band] · y` to the output's block. So the scratch holds `y` after every
point (induction on the point), each block written back is the layer's band, and the 25 bands tile the result. -/

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Sage

open Cert.KernelIdeal Cert.KernelIdeal.Gen

/-! ## What each control case leaves, as the stored values of its loads -/

section Pieces
variable {F : FTy → Type} [FloatOps F]

theorem hz : (![0, 0] : Fin 2 → Nat) = fun _ => 0 := funext fun a => by fin_cases a <;> rfl

/-- The rectangles of the body's three partial loads: the weight's upper and lower halves, and the band of the features. -/
abbrev rW1 : Rect S512x256 := Rect.unit (s := S512x256) ![0, 0] S256x256.size inb_S512x256_S256x256_0_0
abbrev rW2 : Rect S512x256 := Rect.unit (s := S512x256) ![256, 0] S256x256.size inb_S512x256_S256x256_256_0
abbrev rBand (i : grid0.Coords) : Rect S10000x256 := Rect.unit (s := S10000x256) (k0_off1 i) S400x256.size (k0_off1_inb i)

/-- At the first point the scratch ends at the features projected by the weight's lower half. -/
theorem scratch_A (c : Dev nD) (i : grid0.Coords) (a1 : Memref sig .tc .vmem S400x10000 .f32) (h1 : a1.IsWhole)
    (a2 : Memref sig .tc .vmem S10000x256 .f32) (h2 : a2.IsWhole) (a3 : Memref sig .tc .vmem S512x256 .f32) (h3 : a3.IsWhole)
    (a4 : Memref sig .tc .vmem S400x256 .f32) (h4 : a4.IsWhole) (a5 : Memref sig .tc .vmem S10000x256 .f32) (h5 : a5.IsWhole)
    (hc : cond0_0 i) (x0 : Vec F S400x10000 .f32) (x1 : Vec F S10000x256 .f32) (x2 : Vec F S512x256 .f32) :
    sout0_A_0 c i a1 h1 a2 h2 a3 h3 a4 h4 a5 h5 hc x0 x1 x2 = k0_pay1 (View.ld x2 rW2) x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h2.read_unread, h3.read_unread, View.ld_unit_zero (S := S10000x256) hz]

/-- At the first point the output block ends at the band's value over the scratch just written. -/
theorem out_A (c : Dev nD) (i : grid0.Coords) (a1 : Memref sig .tc .vmem S400x10000 .f32) (h1 : a1.IsWhole)
    (a2 : Memref sig .tc .vmem S10000x256 .f32) (h2 : a2.IsWhole) (a3 : Memref sig .tc .vmem S512x256 .f32) (h3 : a3.IsWhole)
    (a4 : Memref sig .tc .vmem S400x256 .f32) (h4 : a4.IsWhole) (a5 : Memref sig .tc .vmem S10000x256 .f32) (h5 : a5.IsWhole)
    (hc : cond0_0 i) (x0 : Vec F S400x10000 .f32) (x1 : Vec F S10000x256 .f32) (x2 : Vec F S512x256 .f32) :
    out0_A_3 c i a1 h1 a2 h2 a3 h3 a4 h4 a5 h5 hc x0 x1 x2
      = k0_pay2 (View.ld x2 rW1) (View.ld x1 (rBand i)) x0 (k0_pay1 (View.ld x2 rW2) x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz, View.readCov_unit_zero (S := S10000x256) _ hz]
  simp only [View.readAt_eq_ld, h1.read_unread, h2.read_unread, h3.read_unread, View.ld_unit_zero (S := S10000x256) hz,
    View.ld_unit_zero (S := S400x10000) hz]
  rfl

/-- At a later point the output block ends at the band's value over the scratch as the point before left it. -/
theorem out_B (c : Dev nD) (i : grid0.Coords) (a1 : Memref sig .tc .vmem S400x10000 .f32) (h1 : a1.IsWhole)
    (a2 : Memref sig .tc .vmem S10000x256 .f32) (h2 : a2.IsWhole) (a3 : Memref sig .tc .vmem S512x256 .f32) (h3 : a3.IsWhole)
    (a4 : Memref sig .tc .vmem S400x256 .f32) (h4 : a4.IsWhole) (a5 : Memref sig .tc .vmem S10000x256 .f32) (h5 : a5.IsWhole)
    (hc : ¬cond0_0 i) (x0 : Vec F S400x10000 .f32) (x1 : Vec F S10000x256 .f32) (x2 : Vec F S512x256 .f32)
    (xs0 : Vec F S10000x256 .f32) :
    out0_B_3 c i a1 h1 a2 h2 a3 h3 a4 h4 a5 h5 hc x0 x1 x2 xs0
      = k0_pay2 (View.ld x2 rW1) (View.ld x1 (rBand i)) x0 xs0 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero hz]
  simp only [View.readAt_eq_ld, h1.read_unread, h2.read_unread, h3.read_unread, h5.read_unread,
    View.ld_unit_zero (S := S10000x256) hz, View.ld_unit_zero (S := S400x10000) hz]
  rfl

/-- The weight's upper half at `(k, j)` is the weight at row `k`. -/
theorem ld_W1 (x2 : Vec F S512x256 .f32) (k j : Fin 256) : View.ld x2 rW1 (ix2 k j) = x2 (ix2 (selfRow k) j) := by
  show x2 _ = x2 _
  congr 1
  funext a
  apply Fin.ext
  match a with
  | ⟨0, _⟩ => show 0 + 1 * k.val = k.val; omega
  | ⟨1, _⟩ => show 0 + 1 * j.val = j.val; omega

/-- The weight's lower half at `(k, j)` is the weight at row `256 + k`. -/
theorem ld_W2 (x2 : Vec F S512x256 .f32) (k j : Fin 256) : View.ld x2 rW2 (ix2 k j) = x2 (ix2 (nbrRow k) j) := by
  show x2 _ = x2 _
  congr 1
  funext a
  apply Fin.ext
  match a with
  | ⟨0, _⟩ => show 256 + 1 * k.val = 256 + k.val; omega
  | ⟨1, _⟩ => show 0 + 1 * j.val = j.val; omega

/-- The band of the features at `(r, k)` is the features at row `400 · i + r`. -/
theorem ld_band (x1 : Vec F S10000x256 .f32) (i : grid0.Coords) (r : Fin 400) (k : Fin 256) (p : Fin 10000)
    (hp : p.val = 400 * (i 0).val + r.val) : View.ld x1 (rBand i) (ix2 r k) = x1 (ix2 p k) := by
  show x1 _ = x1 _
  congr 1
  funext a
  apply Fin.ext
  match a with
  | ⟨0, _⟩ =>
    show k0_off1 i 0 + 1 * r.val = p.val
    rw [k0_off1_eq]; show 400 * (i 0).val + 1 * r.val = p.val; omega
  | ⟨1, _⟩ =>
    show k0_off1 i 1 + 1 * k.val = k.val
    rw [k0_off1_eq]; show 0 + 1 * k.val = k.val; omega

end Pieces

/-! ## The staged blocks, and the run's contents point by point -/

section Blocks
variable {F : FTy → Type} [FloatOps F]
variable (m : (ℓ : Loc nD τ sig) → Buf (Elt F) ℓ)

/-- The three argument arrays as the region finds them, and the staged block of each at a point, at their literal types. -/
abbrev xArr (c : Dev nD) : Vec F S10000x256 .f32 := V m c main_arg0
abbrev aArr (c : Dev nD) : Vec F S10000x10000 .f32 := V m c main_arg1
abbrev wArr (c : Dev nD) : Vec F S512x256 .f32 := V m c main_arg2
abbrev aBlk (c : Dev nD) (t : Fin cfg0.N) : Vec F S400x10000 .f32 := iblk m c 0 t
abbrev xBlk (c : Dev nD) (t : Fin cfg0.N) : Vec F S10000x256 .f32 := iblk m c 1 t
abbrev wBlk (c : Dev nD) (t : Fin cfg0.N) : Vec F S512x256 .f32 := iblk m c 2 t

/-- The index maps over the grid: the adjacency and the output move one band per point, the features and the weight stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

/-- The features are staged whole at every point. -/
theorem xBlk_eq (c : Dev nD) (t : Fin cfg0.N) : xBlk m c t = xArr m c := by
  funext y
  show V m c main_arg0 (((cfg0.win 1).blk t).view.emb y) = V m c main_arg0 y
  congr 1
  funext a
  apply Fin.ext
  obtain ⟨-, -, e0, e1, -⟩ := idx_facts t
  match a with
  | ⟨0, _⟩ => show win0_1.index t (0 : Fin 2) * 10000 + 1 * (y 0).val = (y 0).val; rw [e0]; omega
  | ⟨1, _⟩ => show win0_1.index t (1 : Fin 2) * 256 + 1 * (y 1).val = (y 1).val; rw [e1]; omega

/-- The weight is staged whole at every point. -/
theorem wBlk_eq (c : Dev nD) (t : Fin cfg0.N) : wBlk m c t = wArr m c := by
  funext y
  show V m c main_arg2 (((cfg0.win 2).blk t).view.emb y) = V m c main_arg2 y
  congr 1
  funext a
  apply Fin.ext
  obtain ⟨-, -, -, -, e0, e1, -⟩ := idx_facts t
  match a with
  | ⟨0, _⟩ => show win0_2.index t (0 : Fin 2) * 512 + 1 * (y 0).val = (y 0).val; rw [e0]; omega
  | ⟨1, _⟩ => show win0_2.index t (1 : Fin 2) * 256 + 1 * (y 1).val = (y 1).val; rw [e1]; omega

/-- The adjacency's block at point `t` is its band of rows `400 · t …`. -/
theorem aBlk_apply (c : Dev nD) (t : Fin cfg0.N) (r : Fin 400) (n : Fin 10000) (p : Fin 10000)
    (hp : p.val = 400 * t.val + r.val) : aBlk m c t (ix2 r n) = aArr m c (ix2 p n) := by
  show V m c main_arg1 (((cfg0.win 0).blk t).view.emb (ix2 r n)) = V m c main_arg1 (ix2 p n)
  congr 1
  funext a
  apply Fin.ext
  obtain ⟨e0, e1, -⟩ := idx_facts t
  match a with
  | ⟨0, _⟩ => show win0_0.index t (0 : Fin 2) * 400 + 1 * r.val = p.val; rw [e0]; omega
  | ⟨1, _⟩ => show win0_0.index t (1 : Fin 2) * 10000 + 1 * n.val = n.val; rw [e1]; omega

/-- The projected features, as the body computes them from the whole arrays. -/
abbrev projArr (c : Dev nD) : Vec F S10000x256 .f32 := k0_pay1 (View.ld (wArr m c) rW2) (xArr m c)

/-- THE SCRATCH after every point holds the projected features: written at the first point, kept by every later one. -/
theorem scratch_eq (c : Dev nD) : ∀ (n : ℕ) (h : n < cfg0.N), (outsAt0 m c n h).2 = projArr m c
  | 0, h => by
    rw [outsAt0_A m c ⟨0, h⟩ rfl]
    dsimp only
    refine (scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _
      (aBlk m c ⟨0, h⟩) (xBlk m c ⟨0, h⟩) (wBlk m c ⟨0, h⟩)).trans ?_
    rw [xBlk_eq, wBlk_eq]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- THE OUTPUT BLOCK after point `t`: the band's value of the whole arrays, the adjacency's band and the projected features. -/
theorem out_eq (c : Dev nD) (t : Fin cfg0.N) :
    (outsAt0 m c t.val t.isLt).1
      = k0_pay2 (View.ld (wArr m c) rW1) (View.ld (xArr m c) (rBand (grid0.coords t))) (aBlk m c t) (projArr m c) := by
  by_cases h0 : t.val % 25 = 0
  · rw [outsAt0_A m c t h0]
    dsimp only
    refine (out_A c (grid0.coords t) (ms0_0 t) (hs0_0 t) (ms0_1 t) (hs0_1 t) (ms0_2 t) (hs0_2 t) (ms0_3 t) (hs0_3 t) scM0_0 (Memref.isWhole_whole _) _
      (aBlk m c t) (xBlk m c t) (wBlk m c t)).trans ?_
    rw [xBlk_eq, wBlk_eq]
  · rw [outsAt0_B m c t h0]
    dsimp only
    refine (out_B c (grid0.coords t) (ms0_0 t) (hs0_0 t) (ms0_1 t) (hs0_1 t) (ms0_2 t) (hs0_2 t) (ms0_3 t) (hs0_3 t) scM0_0 (Memref.isWhole_whole _) _
      (aBlk m c t) (xBlk m c t) (wBlk m c t) _).trans ?_
    rw [xBlk_eq, wBlk_eq, scratch_eq]

end Blocks

/-! ## Over the extended reals: each band is the layer's, and the bands tile the result -/

section Ideal
variable (m : (ℓ : Loc nD τ sig) → Buf (Elt Ideal) ℓ) (ρ : Dev nD → PrngReg)

/-- The band's stored value at `(r, j)` is the layer at row `400 · T + r`, column `j`. -/
theorem band_eq_sage (X : Vec Ideal S10000x256 .f32) (Aa : Vec Ideal S10000x10000 .f32) (W : Vec Ideal S512x256 .f32)
    (ablk : Vec Ideal S400x10000 .f32) (i : grid0.Coords) (T : ℕ) (hT : (i 0).val = T)
    (hA : ∀ (r : Fin 400) (n p : Fin 10000), p.val = 400 * T + r.val → ablk (ix2 r n) = Aa (ix2 p n))
    (y : S400x256.Idx) (p : Fin 10000) (hp : p.val = 400 * T + (y 0).val) :
    k0_pay2 (F := Ideal) (View.ld W rW1) (View.ld X (rBand i)) ablk (k0_pay1 (View.ld W rW2) X) y
      = sageAt X Aa W p (y 1) := by
  obtain ⟨r, j, rfl⟩ : ∃ (r : Fin 400) (j : Fin 256), y = ix2 r j := ⟨y 0, y 1, eq_ix2 y⟩
  rw [pay2_apply]
  unfold sageAt
  congr 1
  · refine Finset.sum_congr rfl fun k _ => ?_
    rw [ld_band X i r k p (by rw [hT]; exact hp), ld_W1]
  · refine Finset.sum_congr rfl fun n _ => ?_
    rw [hA r n p hp, pay1_apply]
    unfold projAt
    congr 1
    refine Finset.sum_congr rfl fun k _ => ?_
    rw [ld_W2]

/-- The layer of the three argument arrays as the region finds them. -/
abbrev layer (c : Dev nD) : S10000x256.Idx → EReal := sage (xArr m c) (aArr m c) (wArr m c)

/-- WHAT POINT `t` WRITES BACK is block `t` of the layer. -/
theorem flushed_eq (c : Dev nD) (t : Fin cfg0.N) :
    (dats m 0 c).flushed 3 t = ((cfg0.win 3).blk t).view.read (Elt Ideal) (layer m c) := by
  rw [Cert.KernelIdeal.Value.flushed3, out_eq]
  obtain ⟨-, -, -, -, -, -, e0, e1, eT⟩ := idx_facts t
  have hN : t.val < 25 := lt_of_lt_of_eq t.isLt (show cfg0.N = 25 from N_0)
  funext y
  have hy0 : (y 0).val < 400 := (y 0).isLt
  have hy1 : (y 1).val < 256 := (y 1).isLt
  show k0_pay2 (F := Ideal) (View.ld (wArr m c) rW1) (View.ld (xArr m c) (rBand (grid0.coords t))) (aBlk m c t) (projArr m c) y
    = sageAt (xArr m c) (aArr m c) (wArr m c) ((((cfg0.win 3).blk t).view.emb y) 0) ((((cfg0.win 3).blk t).view.emb y) 1)
  have hp0 : ((((cfg0.win 3).blk t).view.emb y) 0).val = 400 * t.val + (y 0).val := by
    show win0_3.index t (0 : Fin 2) * 400 + 1 * (y 0).val = _; rw [e0]; omega
  have hp1 : (((cfg0.win 3).blk t).view.emb y) 1 = y 1 := by
    apply Fin.ext
    show win0_3.index t (1 : Fin 2) * 256 + 1 * (y 1).val = _; rw [e1]; omega
  rw [hp1]
  exact band_eq_sage (xArr m c) (aArr m c) (wArr m c) (aBlk m c t) (grid0.coords t) t.val eT
    (fun r n p hp => aBlk_apply m c t r n p hp) y _ hp0

/-- An index of the result is in point `t`'s block iff each coordinate is in the block's range on its axis. -/
theorem mem_blk3 (t : Fin cfg0.N) (i : S10000x256.Idx) :
    i ∈ ((cfg0.win 3).blk t).view.set ↔ ∀ a : Fin 2, win0_3.index t a * S400x256.size a ≤ (i a).val
      ∧ (i a).val < win0_3.index t a * S400x256.size a + S400x256.size a := by
  show i ∈ ((View.whole main_v0).slice (win0_3.rect t)).set ↔ _
  rw [View.set_slice_whole, Rect.mem_set_unit]
  exact Iff.rfl

/-- Every index of the result lies in the block of the point that owns its row's band. -/
theorem cover3 (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 25 := N_0
  have ht : (i 0).val / 400 < cfg0.N := by omega
  obtain ⟨-, -, -, -, -, -, e0, e1, -⟩ := idx_facts ⟨(i 0).val / 400, ht⟩
  refine ⟨⟨(i 0).val / 400, ht⟩, flush0_3 _, ?_⟩
  rw [mem_blk3]
  intro a
  match a with
  | ⟨0, _⟩ =>
    show win0_3.index ⟨(i 0).val / 400, ht⟩ (0 : Fin 2) * 400 ≤ (i 0).val
      ∧ (i 0).val < win0_3.index ⟨(i 0).val / 400, ht⟩ (0 : Fin 2) * 400 + 400
    rw [e0]; dsimp only; omega
  | ⟨1, _⟩ =>
    show win0_3.index ⟨(i 0).val / 400, ht⟩ (1 : Fin 2) * 256 ≤ (i 1).val
      ∧ (i 1).val < win0_3.index ⟨(i 0).val / 400, ht⟩ (1 : Fin 2) * 256 + 256
    rw [e1]; omega

/-- THE RESULT ARRAY after the run is the layer of the argument arrays. -/
theorem final3 (c : Dev nD) : (dats m 0 c).arrAt 3 cfg0.N = layer m c :=
  (dats m 0 c).arrAt_eq_of_cover 3 (layer m c) (fun t _ => flushed_eq m c t) cover3

/-- The kernel's run, read: the result at the layer of the arguments as launched, the arguments unchanged. -/
theorem kernel_run : θ_run defs (onTc (τ := τ) (main (F := Ideal))) ⟨m, fun _ => 0, ρ⟩ fun r => ∀ c : Dev nD,
      r.2.mem ((c : Thread nD τ).loc main_v0)
        = sage (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩)
    (Cert.KernelIdeal.Value.run_blocks m ρ)

end Ideal

end Cert.Sage

end
-- ==== Proof.SageReference.lean ====
import proofs.«144038_g72069551227474_cont_9to1c4b_720_7_alg».proof.Proof.Gen.ReferenceIdeal.Run
import proofs.«144038_g72069551227474_cont_9to1c4b_720_7_alg».proof.Proof.Gen.ReferenceIdeal.Read
import proofs.«144038_g72069551227474_cont_9to1c4b_720_7_alg».proof.Proof.SageSpec

/-! # The reference's result is the layer, aggregating first

The reference multiplies the adjacency by the features, joins the features and that aggregate along the columns, and
multiplies the joined `[10000, 512]` array by the whole weight. Read at an index: the last product is a sum over the 512
joined columns; a joined column below 256 is a feature, one at or past 256 an aggregated entry, itself a sum over the
nodes. That is `sageCat`, entry by entry. -/

noncomputable section

open scoped BigOperators

namespace Cert.Sage

open Idealize.ShloMosaic Idealize.ShloMosaic.ValueIdx
open Cert.ReferenceIdeal Cert.ReferenceIdeal.Gen Cert.ReferenceIdeal.Read

/-- The first product at row `p`, column `k` is the neighbours' aggregate. -/
theorem ref_aggr (x : (⟨S10000x256, .f32⟩ : BufTy).Contents (Elt Ideal)) (adj : (⟨S10000x10000, .f32⟩ : BufTy).Contents (Elt Ideal))
    (p : Fin 10000) (k : Fin 256) : val_main_v0 (F := Ideal) x adj (ix2 p k) = aggrAt x adj p k := by
  rw [val_main_v0_apply]
  unfold aggrAt
  refine Finset.sum_congr rfl fun n _ => ?_
  have e1 : lidx_main_v0 (ix2 p k) n = ix2 p n := funext fun a => by match a with | ⟨0, _⟩ => rfl | ⟨1, _⟩ => rfl
  have e2 : ridx_main_v0 (ix2 p k) n = ix2 n k := funext fun a => by match a with | ⟨0, _⟩ => rfl | ⟨1, _⟩ => rfl
  rw [e1, e2]

/-- The joined array at row `p`, column `k`. -/
theorem ref_cat (x : (⟨S10000x256, .f32⟩ : BufTy).Contents (Elt Ideal)) (adj : (⟨S10000x10000, .f32⟩ : BufTy).Contents (Elt Ideal))
    (p : Fin 10000) (k : Fin 512) : val_main_v1 (F := Ideal) x adj (ix2 p k) = catRow x adj p k := by
  unfold val_main_v1 catRow
  by_cases h : k.val < 256
  · rw [dif_pos h]
    exact concatenate_pair_apply_left (t := S10000x512) (s₁ := S10000x256) (s₂ := S10000x256) (1 : Fin 2) x _ _
      (ix2 p k) rfl (ix2 p (⟨k.val, h⟩ : Fin 256))
      (fun b => by match b with | ⟨0, _⟩ => rfl | ⟨1, _⟩ => rfl)
  · rw [dif_neg h]
    refine (concatenate_pair_apply_right (t := S10000x512) (s₁ := S10000x256) (s₂ := S10000x256) (1 : Fin 2) x _ _
      (ix2 p k) rfl rfl (ix2 p (⟨k.val - 256, by omega⟩ : Fin 256))
      (fun b hb => by
        match b with
        | ⟨0, _⟩ => rfl
        | ⟨1, _⟩ => exact absurd rfl hb)
      (by show (k.val - 256) + 256 = k.val; omega)).trans ?_
    exact ref_aggr x adj _ _

/-- The reference's result is `sageCat` of its three arguments. -/
theorem ref_eq_sageCat (x : (⟨S10000x256, .f32⟩ : BufTy).Contents (Elt Ideal)) (adj : (⟨S10000x10000, .f32⟩ : BufTy).Contents (Elt Ideal))
    (w : (⟨S512x256, .f32⟩ : BufTy).Contents (Elt Ideal)) :
    val_main_v2 (F := Ideal) x adj w = sageCat x adj w := by
  funext i
  obtain ⟨p, q, rfl⟩ : ∃ (p : Fin 10000) (q : Fin 256), i = ix2 p q := ⟨i 0, i 1, eq_ix2 i⟩
  rw [val_main_v2_apply]
  show _ = sageCatAt x adj w p q
  unfold sageCatAt
  refine Finset.sum_congr rfl fun k _ => ?_
  have e1 : lidx_main_v2 (ix2 p q) k = ix2 p k := funext fun a => by match a with | ⟨0, _⟩ => rfl | ⟨1, _⟩ => rfl
  have e2 : ridx_main_v2 (ix2 p q) k = ix2 k q := funext fun a => by match a with | ⟨0, _⟩ => rfl | ⟨1, _⟩ => rfl
  rw [e1, e2, ref_cat]

end Cert.Sage

end
-- ==== Proof.SageFinite.lean ====
import proofs.«144038_g72069551227474_cont_9to1c4b_720_7_alg».proof.Proof.Gen.Pre_finite_inputs
import proofs.«144038_g72069551227474_cont_9to1c4b_720_7_alg».proof.Proof.LibRealSums
import Idealize.ShloMosaic.Lib.ReduceAll
import Idealize.ShloMosaic.Lib.ValueIdx
import Idealize.ShloMosaic.PureOps.Ideal.Laws

/-! # Finite inputs are real numbers

The precondition says, of each of the three input arrays, that every entry's absolute value is below `+∞`. Over the
extended reals that is exactly: every entry is a real number. -/

noncomputable section

namespace Cert.Sage

open Idealize.ShloMosaic Idealize.ShloMosaic.RealSums

/-- The scalar shape has one index. -/
instance : Subsingleton Cert.Pre_finite_inputs.S_.Idx := ⟨fun _ _ => funext fun d => d.elim0⟩

/-- The single-precision pattern `0x7F800000` (sign 0, exponent all ones, fraction 0) is `+∞`. -/
theorem ofBits_inf : Ideal.ofBits .f32 0x7F800000#32 = (⊤ : EReal) := by
  simp [Ideal.ofBits, Ideal.ieee]

/-- An extended real whose absolute value `max x (-x)` lies strictly below `+∞` is a real number: `+∞` is its own
    absolute value and `-∞` has `+∞` for its negation, so neither infinity passes the comparison. -/
theorem isReal_of_abs_lt_top (x : EReal) (h : max x (-x) < ⊤) : IsReal x := by
  induction x using EReal.rec with
  | bot => simp at h
  | top => simp at h
  | coe r => exact ⟨r, rfl⟩

/-- One array of the precondition: when the conjunction over all entries of `|x| < +∞` is one, every entry of `x` is a
    real number. The conjunction over both axes is one only if each compared entry is one; the compared entry at `i` is
    the truth value of `max (x i) (-(x i)) < +∞`, the broadcast scalar reading `+∞` at every index. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) (i : s.Idx) : IsReal (x i) := by
  have hi := Host.reduce_andi_all _ _ hr hu ValueIdx.ix0 e i
  have hc : Ideal.cmp .olt (max (x i) (-(x i))) (Ideal.ofBits .f32 0x7F800000#32) = 1#1 := hi
  have hlt : max (x i) (-(x i)) < Ideal.ofBits .f32 0x7F800000#32 := by
    by_contra hn
    simp [Ideal.cmp, hn] at hc
  rw [ofBits_inf] at hlt
  exact isReal_of_abs_lt_top _ hlt

/-- Every entry of the three arrays is a real number when the precondition evaluates to one. -/
theorem real_of_finite_inputs [Cert.Pre_finite_inputs.Facts]
    (a0 : FVec Ideal Cert.Pre_finite_inputs.S10000x256 .f32) (a1 : FVec Ideal Cert.Pre_finite_inputs.S10000x10000 .f32)
    (a2 : FVec Ideal Cert.Pre_finite_inputs.S512x256 .f32)
    (h : Cert.Pre_finite_inputs.fn (F := Ideal) a0 a1 a2 = fun _ => 1#1) :
    (∀ i, IsReal (a0 i)) ∧ (∀ i, IsReal (a1 i)) ∧ (∀ i, IsReal (a2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨isReal_of_all a0 _ _ _ h0', isReal_of_all a1 _ _ _ h1, isReal_of_all a2 _ _ _ h2⟩

end Cert.Sage

end
-- ==== Proof.lean ====
/- The certificate of a GraphSAGE layer kernel against its reference, over the extended reals.

   With `x : [10000, 256]` the node features, `adj : [10000, 10000]` the dense adjacency and `w : [512, 256]` the weight,
   the reference computes `concat([x, adj · x], axis = 1) · w`. The kernel splits the weight into its upper half `w₁`
   (rows 0 … 255) and lower half `w₂` (rows 256 … 511) and computes `x · w₁ + adj · (x · w₂)`: the projection `x · w₂` once,
   at the first of 25 grid points, into a scratch carried across the grid; then, band of 400 rows by band, the sum of the
   two products. The two results are the same array whenever every input entry is a real number, which the precondition
   (all inputs finite) gives: the sum over the 512 joined columns splits at 256, and in the second half the weight moves
   through the double sum over nodes and columns — associativity of a double contraction, a law of the reals that fails
   on the extended reals once an infinity is among the terms.

   The three frames: the two kernels' are the generated frame runs; the reference's is its generated run with the result
   dropped. The idealization rewrote no operation, so `preserves` is trivial. `algebraic`: the kernel's result array is
   `Sage.sage` of the arguments (the frame run's blocks read back, an induction over the grid points for the carried
   scratch), the reference's is `Sage.sageCat` (its run read operation by operation), and `Sage.sageCat_eq_sage` joins them
   under `Sage.real_of_finite_inputs`. -/
import proofs.«144038_g72069551227474_cont_9to1c4b_720_7_alg».proof.Defs
import proofs.«144038_g72069551227474_cont_9to1c4b_720_7_alg».proof.Proof.Gen.Kernel
import proofs.«144038_g72069551227474_cont_9to1c4b_720_7_alg».proof.Proof.Gen.Kernel.Skeleton
import proofs.«144038_g72069551227474_cont_9to1c4b_720_7_alg».proof.Proof.Gen.Kernel.Launch
import proofs.«144038_g72069551227474_cont_9to1c4b_720_7_alg».proof.Proof.Gen.Kernel.Points
import proofs.«144038_g72069551227474_cont_9to1c4b_720_7_alg».proof.Proof.Gen.Kernel.Frame
import proofs.«144038_g72069551227474_cont_9to1c4b_720_7_alg».proof.Proof.Gen.KernelIdeal
import proofs.«144038_g72069551227474_cont_9to1c4b_720_7_alg».proof.Proof.Gen.KernelIdeal.Skeleton
import proofs.«144038_g72069551227474_cont_9to1c4b_720_7_alg».proof.Proof.Gen.KernelIdeal.Launch
import proofs.«144038_g72069551227474_cont_9to1c4b_720_7_alg».proof.Proof.Gen.KernelIdeal.Points
import proofs.«144038_g72069551227474_cont_9to1c4b_720_7_alg».proof.Proof.Gen.KernelIdeal.Frame
import proofs.«144038_g72069551227474_cont_9to1c4b_720_7_alg».proof.Proof.Gen.ReferenceIdeal
import proofs.«144038_g72069551227474_cont_9to1c4b_720_7_alg».proof.Proof.Gen.Pre_finite_inputs
import proofs.«144038_g72069551227474_cont_9to1c4b_720_7_alg».proof.Proof.SageKernel
import proofs.«144038_g72069551227474_cont_9to1c4b_720_7_alg».proof.Proof.SageReference
import proofs.«144038_g72069551227474_cont_9to1c4b_720_7_alg».proof.Proof.SageFinite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the layer of the agreeing arguments: the kernel at `sage`, the reference at `sageCat`, one array
    over the real entries the precondition gives. -/
theorem algebraic : Cert.algebraic_KernelIdeal_ReferenceIdeal := by
  intro m ρ m' ρ' hpre hagree
  refine ⟨_, Cert.Sage.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Sage.ref_eq_sageCat, (hagree c).1, (hagree c).2.1, (hagree c).2.2]
  obtain ⟨hx, ha, hw⟩ := Cert.Sage.real_of_finite_inputs _ _ _ (hpre c)
  exact Cert.Sage.sageCat_eq_sage _ _ _ hx ha hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
